-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S256x128 .f32) (main_arg9 : FVec F S256x128 .f32) (main_arg10 : FVec F S128 .f32) (main_arg11 : FVec F S128x2 .f32) (main_arg12 : FVec F S2 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg11
  let main_cst_18 : FVec F S_ .f32 := constant S_ .f32 0x7F800000#32
  let main_v50 : FVec F S128x2 .f32 := broadcastInDim S128x2 ![] bcast_S_S128x2 main_cst_18
  fn_part3 (F := F) main_arg12 main_v48 main_v49 main_v50

def fn_part1 {F : FTy → Type} [FloatOps F] (main_arg5 : FVec F S256x256 .f32) (main_arg6 : FVec F S256x256 .f32) (main_arg7 : FVec F S256 .f32) (main_arg8 : FVec F S256x128 .f32) (main_arg9 : FVec F S256x128 .f32) (main_arg10 : FVec F S128 .f32) (main_arg11 : FVec F S128x2 .f32) (main_arg12 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x128 .f32) (main_arg9 : FVec F S256x128 .f32) (main_arg10 : FVec F S128 .f32) (main_arg11 : FVec F S128x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S600000x256 : Shape := ⟨2, ![600000, 256]⟩
abbrev S1x128 : Shape := ⟨2, ![1, 128]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 99
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S256x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x256, .f32⟩
  | .hbm, ⟨53, _⟩ => ⟨S_, .f32⟩
  | .hbm, ⟨54, _⟩ => ⟨S50000x256, .f32⟩
  | .hbm, ⟨55, _⟩ => ⟨S600000x1, .i32⟩
  | .hbm, ⟨56, _⟩ => ⟨S50000x256, .f32⟩
  | .hbm, ⟨57, _⟩ => ⟨S_, .f32⟩
  | .hbm, ⟨58, _⟩ => ⟨S600000, .f32⟩
  | .hbm, ⟨59, _⟩ => ⟨S_, .f32⟩
  | .hbm, ⟨60, _⟩ => ⟨S50000, .f32⟩
  | .hbm, ⟨61, _⟩ => ⟨S600000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x256, .f32⟩
  | .hbm, ⟨80, _⟩ => ⟨S_, .f32⟩
  | .hbm, ⟨81, _⟩ => ⟨S50000x256, .f32⟩
  | .hbm, ⟨82, _⟩ => ⟨S600000x1, .i32⟩
  | .hbm, ⟨83, _⟩ => ⟨S50000x256, .f32⟩
  | .hbm, ⟨84, _⟩ => ⟨S_, .f32⟩
  | .hbm, ⟨85, _⟩ => ⟨S600000, .f32⟩
  | .hbm, ⟨86, _⟩ => ⟨S_, .f32⟩
  | .hbm, ⟨87, _⟩ => ⟨S50000, .f32⟩
  | .hbm, ⟨88, _⟩ => ⟨S600000x1, .i32⟩
  | .hbm, ⟨89, _⟩ => ⟨S50000, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S50000x1, .f32⟩
  | .hbm, ⟨94, _⟩ => ⟨S50000x256, .f32⟩
  | .hbm, ⟨95, _⟩ => ⟨S50000x256, .f32⟩
  | .hbm, ⟨96, _⟩ => ⟨S1x128, .f32⟩
  | .hbm, ⟨97, _⟩ => ⟨S1x2, .f32⟩
  | .hbm, ⟨98, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x128, .f32⟩
  | .local _ .vmem, ⟨23, _⟩ => ⟨S256x128, .f32⟩
  | .local _ .vmem, ⟨24, _⟩ => ⟨S1x128, .f32⟩
  | .local _ .vmem, ⟨25, _⟩ => ⟨S128x2, .f32⟩
  | .local _ .vmem, ⟨26, _⟩ => ⟨S1x2, .f32⟩
  | .local _ .vmem, ⟨27, _⟩ => ⟨S5000x2, .f32⟩
  | .local _ .vmem, ⟨28, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S128_S1x128 : S128.ShapeCasts S1x128
  shapeCasts_S2_S1x2 : S2.ShapeCasts S1x2
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x2.size a ≤ S128x2.size a
  hwx2_5 : ∀ i : grid2.Coords, EltTy.bits .f32 = 32 ∨ (Rect.block (s := S128x2) S128x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x2.size a ≤ S50000x2.size a
  hwx2_7 : ∀ i : grid2.Coords, EltTy.bits .f32 = 32 ∨ (Rect.block (s := S50000x2) S5000x2.size (cc2_transform_7 i) (hinb2_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S5000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩
abbrev S50000x2 : Shape := ⟨2, ![50000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S256x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x256, .f32⟩
  | .hbm, ⟨60, _⟩ => ⟨S_, .f32⟩
  | .hbm, ⟨61, _⟩ => ⟨S50000x256, .f32⟩
  | .hbm, ⟨62, _⟩ => ⟨S600000x1, .i32⟩
  | .hbm, ⟨63, _⟩ => ⟨S50000x256, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x256, .f32⟩
  | .hbm, ⟨94, _⟩ => ⟨S_, .f32⟩
  | .hbm, ⟨95, _⟩ => ⟨S50000x256, .f32⟩
  | .hbm, ⟨96, _⟩ => ⟨S600000x1, .i32⟩
  | .hbm, ⟨97, _⟩ => ⟨S50000x256, .f32⟩
  | .hbm, ⟨98, _⟩ => ⟨S_, .f32⟩
  | .hbm, ⟨99, _⟩ => ⟨S600000, .f32⟩
  | .hbm, ⟨100, _⟩ => ⟨S_, .f32⟩
  | .hbm, ⟨101, _⟩ => ⟨S50000, .f32⟩
  | .hbm, ⟨102, _⟩ => ⟨S600000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x256, .f32⟩
  | .hbm, ⟨109, _⟩ => ⟨S50000x256, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S50000x2, .f32⟩
  | .hbm, ⟨117, _⟩ => ⟨S1x2, .f32⟩
  | .hbm, ⟨118, _⟩ => ⟨S50000x2, .f32⟩
  | .hbm, ⟨119, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.LibDense.lean ====
/-
  Dense layers at the ideal instance, read at an index.

  A plain matrix product (rows by contraction, times contraction by columns) accumulated into a zero splat, as a
  kernel's `tpu.matmul` computes it, is at entry (a, b) the sum over the contracted coordinate c of
  A (a, c) * B (c, b): the same sum the host's `dot_general` is at that entry. On the extended reals this uses
  only `0 + x = x`, so it holds at the infinities too.

  On top of it: one entry of a graph-convolution layer with a neighbour-mean operand M and a self operand X,
      (M · Wl)(a, j) + (X · Wr)(a, j) + b j,
  and one entry of a linear head H · W + b, each as a function of row and column, together with the whole arrays
  they fill, the value of the usual kernel spelling (two matmuls into zero, added, plus a one-row bias
  broadcast down the rows) at an entry, and that an entry sees its row operands only through one row.
-/
import Idealize.ShloMosaic.Lib.StackMember
import Idealize.ShloMosaic.Lib.ValueLayout

noncomputable section

namespace Cert.Dense

open Idealize.ShloMosaic Idealize.ShloMosaic.ValueIdx

variable {m k n : Nat}

/-- A plain product into the zero splat, at entry (a, b): the sum over the contracted coordinate. -/
theorem matmul_plain_zero_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- Entry (a, j) of a mean-aggregating graph convolution: neighbour mean times `Wl`, plus the node's own row
    times `Wr`, plus the bias. -/
def sageAt (M X : FVec Ideal ⟨2, ![m, k]⟩ .f32) (Wl Wr : FVec Ideal ⟨2, ![k, n]⟩ .f32) (b : Fin n → EReal)
    (a : Fin m) (j : Fin n) : EReal :=
  (∑ c : Fin k, M (ix2 a c) * Wl (ix2 c j)) + (∑ c : Fin k, X (ix2 a c) * Wr (ix2 c j)) + b j

/-- The layer's whole output array. -/
def sage (M X : FVec Ideal ⟨2, ![m, k]⟩ .f32) (Wl Wr : FVec Ideal ⟨2, ![k, n]⟩ .f32) (b : Fin n → EReal) :
    FVec Ideal ⟨2, ![m, n]⟩ .f32 :=
  fun i => sageAt M X Wl Wr b (i 0) (i 1)

/-- The layer followed by `max · 0`, the zero being the f32 word 0. -/
def reluSage (M X : FVec Ideal ⟨2, ![m, k]⟩ .f32) (Wl Wr : FVec Ideal ⟨2, ![k, n]⟩ .f32) (b : Fin n → EReal) :
    FVec Ideal ⟨2, ![m, n]⟩ .f32 :=
  fun i => max (sageAt M X Wl Wr b (i 0) (i 1)) (Ideal.ofBits .f32 0x00000000#32)

/-- Entry (a, j) of a linear head `H · W + b`. -/
def headAt (H : FVec Ideal ⟨2, ![m, k]⟩ .f32) (W : FVec Ideal ⟨2, ![k, n]⟩ .f32) (b : Fin n → EReal)
    (a : Fin m) (j : Fin n) : EReal :=
  (∑ c : Fin k, H (ix2 a c) * W (ix2 c j)) + b j

/-- The head's whole output array. -/
def head (H : FVec Ideal ⟨2, ![m, k]⟩ .f32) (W : FVec Ideal ⟨2, ![k, n]⟩ .f32) (b : Fin n → EReal) :
    FVec Ideal ⟨2, ![m, n]⟩ .f32 :=
  fun i => headAt H W b (i 0) (i 1)

theorem sage_apply (M X : FVec Ideal ⟨2, ![m, k]⟩ .f32) (Wl Wr : FVec Ideal ⟨2, ![k, n]⟩ .f32) (b : Fin n → EReal)
    (a : Fin m) (j : Fin n) : sage M X Wl Wr b (ix2 a j) = sageAt M X Wl Wr b a j := rfl

theorem reluSage_apply (M X : FVec Ideal ⟨2, ![m, k]⟩ .f32) (Wl Wr : FVec Ideal ⟨2, ![k, n]⟩ .f32) (b : Fin n → EReal)
    (a : Fin m) (j : Fin n) :
    reluSage M X Wl Wr b (ix2 a j) = max (sageAt M X Wl Wr b a j) (Ideal.ofBits .f32 0x00000000#32) := rfl

theorem head_apply (H : FVec Ideal ⟨2, ![m, k]⟩ .f32) (W : FVec Ideal ⟨2, ![k, n]⟩ .f32) (b : Fin n → EReal)
    (a : Fin m) (j : Fin n) : head H W b (ix2 a j) = headAt H W b a j := rfl

/-- The layer's entry depends on the two row operands only through their rows at the entry's row: two pairs of
    operands (of any heights) whose rows agree give the same entry. -/
theorem sageAt_congr {m' : Nat} (M X : FVec Ideal ⟨2, ![m, k]⟩ .f32) (M' X' : FVec Ideal ⟨2, ![m', k]⟩ .f32)
    (Wl Wr : FVec Ideal ⟨2, ![k, n]⟩ .f32) (b : Fin n → EReal) (a : Fin m) (a' : Fin m')
    (hM : ∀ c : Fin k, M (ix2 a c) = M' (ix2 a' c)) (hX : ∀ c : Fin k, X (ix2 a c) = X' (ix2 a' c)) (j : Fin n) :
    sageAt M X Wl Wr b a j = sageAt M' X' Wl Wr b a' j := by
  unfold sageAt
  simp only [hM, hX]

/-- The head's entry depends on its row operand only through the row at the entry's row. -/
theorem headAt_congr {m' : Nat} (H : FVec Ideal ⟨2, ![m, k]⟩ .f32) (H' : FVec Ideal ⟨2, ![m', k]⟩ .f32)
    (W : FVec Ideal ⟨2, ![k, n]⟩ .f32) (b : Fin n → EReal) (a : Fin m) (a' : Fin m')
    (hH : ∀ c : Fin k, H (ix2 a c) = H' (ix2 a' c)) (j : Fin n) :
    headAt H W b a j = headAt H' W b a' j := by
  unfold headAt
  simp only [hH]

/-- A vector cast to a one-row matrix, read at (0, j), is the vector's entry j. -/
theorem shapeCast_row_apply {α : Type} (x : (⟨1, ![n]⟩ : Shape).Idx → α) (h1 : (⟨1, ![n]⟩ : Shape).ShapeCasts ⟨2, ![1, n]⟩)
    (j : Fin n) : shapeCast ⟨2, ![1, n]⟩ x h1 (ix2 (0 : Fin 1) j) = x (ix1 j) :=
  shapeCast_apply x h1 (ix2 (0 : Fin 1) j) (ix1 j) (by
    rw [Shape.rowMajor_val_two, Shape.rowMajor_val_one]; show j.val = 0 * n + j.val; omega)

/-- The kernel's spelling of the layer on a block of rows, at entry (r, j): both operands cut to bf16 (the identity
    on the ideal values), two plain products into zero added, plus the one-row bias laid down the rows. -/
theorem sage_block_apply (d : DotDims ⟨2, ![m, k]⟩ ⟨2, ![k, n]⟩ ⟨2, ![m, n]⟩) (hd : d = DotDims.plain m k n)
    (x0 x1 : FVec Ideal ⟨2, ![m, k]⟩ .f32) (x2 x3 : FVec Ideal ⟨2, ![k, n]⟩ .f32) (x4 : FVec Ideal ⟨2, ![1, n]⟩ .f32)
    (h0 h1 h2 h3 : FTy.bf16.bits < FTy.f32.bits) (hb : (⟨2, ![1, n]⟩ : Shape).Broadcasts ⟨2, ![m, n]⟩)
    (r : Fin m) (j : Fin n) :
    addf (addf (matmul d none (truncf .bf16 x0 h0) (truncf .bf16 x2 h2) (constant ⟨2, ![m, n]⟩ .f32 0x00000000#32))
        (matmul d none (truncf .bf16 x1 h1) (truncf .bf16 x3 h3) (constant ⟨2, ![m, n]⟩ .f32 0x00000000#32)))
      (broadcastTo ⟨2, ![m, n]⟩ x4 hb) (ix2 r j)
      = sageAt x0 x1 x2 x3 (fun j => x4 (ix2 (0 : Fin 1) j)) r j := by
  subst hd
  show _ + _ + _ = _
  rw [matmul_plain_zero_apply, matmul_plain_zero_apply, broadcastTo_1b_ab_apply]
  rfl

/-- The kernel's spelling of a linear head on a block of rows, at entry (r, j). -/
theorem head_block_apply (d : DotDims ⟨2, ![m, k]⟩ ⟨2, ![k, n]⟩ ⟨2, ![m, n]⟩) (hd : d = DotDims.plain m k n)
    (h : FVec Ideal ⟨2, ![m, k]⟩ .f32) (w : FVec Ideal ⟨2, ![k, n]⟩ .f32) (x6 : FVec Ideal ⟨2, ![1, n]⟩ .f32)
    (h0 h1 : FTy.bf16.bits < FTy.f32.bits) (hb : (⟨2, ![1, n]⟩ : Shape).Broadcasts ⟨2, ![m, n]⟩)
    (r : Fin m) (j : Fin n) :
    addf (matmul d none (truncf .bf16 h h0) (truncf .bf16 w h1) (constant ⟨2, ![m, n]⟩ .f32 0x00000000#32))
      (broadcastTo ⟨2, ![m, n]⟩ x6 hb) (ix2 r j)
      = headAt h w (fun j => x6 (ix2 (0 : Fin 1) j)) r j := by
  subst hd
  show _ + _ = _
  rw [matmul_plain_zero_apply, broadcastTo_1b_ab_apply]
  rfl

end Cert.Dense

end
-- ==== Proof.KLayer0a.lean ====
/-
  The first region's blocks: what its body stores at an entry, where each window's block sits in its array, and
  that the output's blocks cover the output array. (The array the region leaves is read off these in the next module.)

  The region runs ten points; point t takes rows 5000 t … 5000 t + 4999 of the neighbour-mean array and of the
  node-feature array, the two weight matrices and the one-row bias whole, and writes rows 5000 t … 5000 t + 4999 of the
  output. Entry (r, j) of the block it writes is
      max ((mean_blk · Wl)(r, j) + (x_blk · Wr)(r, j) + b (0, j)) 0,
  and row r of a block at point t is row 5000 t + r of the array, so the ten blocks together are the rows of
  `reluSage mean x Wl Wr b`: every row of the output lies in exactly the block of the point (row / 5000).
-/
import proofs.«147264_j69286412419426_1_alg».proof.Proof.Gen.KernelIdeal.Frame
import proofs.«147264_j69286412419426_1_alg».proof.Proof.LibDense
import Idealize.ShloMosaic.Lib.Pipeline.Value

set_option maxRecDepth 16384

noncomputable section

namespace Cert.KernelIdeal.Layer0

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, j): the layer's entry over the point's blocks, then `max · 0`. -/
theorem pay_apply (x0 x1 : Vec Ideal S5000x128 .f32) (x2 x3 : Vec Ideal S128x256 .f32) (x4 : Vec Ideal S1x256 .f32)
    (r : Fin 5000) (j : Fin 256) :
    k0_pay1 (F := Ideal) x0 x1 x2 x3 x4 (ix2 r j)
      = max (sageAt x0 x1 x2 x3 (fun j => x4 (ix2 (0 : Fin 1) j)) r j) (Ideal.ofBits .f32 0x00000000#32) := by
  unfold k0_pay1
  simp only [shapeCast_self]
  exact congrArg (fun z => max z (Ideal.ofBits .f32 0x00000000#32))
    (sage_block_apply dot_S5000x128_S128x256_S5000x256_1_0_0_1_n_n rfl x0 x1 x2 x3 x4 _ _ _ _ _ r j)

/-- The index maps over the ten points: the row-blocked windows (mean, features, output) are at block (t, 0), the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := by
  exact lt_of_lt_of_eq t.isLt (show cfg0.N = 10 from N_0)

/-- Row r of the neighbour-mean window's block at point t is row 5000 t + r of its array. -/
theorem blk0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_v22 : Vec Ideal S50000x128 .f32) i := by
  obtain ⟨e0, e1, -⟩ := idx_facts t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Row r of the node-feature window's block at point t is row 5000 t + r of its array. -/
theorem blk1_apply (c : Dev nD) (t : Fin cfg0.N) (y : S5000x128.Idx) (i : S50000x128.Idx)
    (h0 : (i 0).val = 5000 * t.val + (y 0).val) (h1 : (i 1).val = (y 1).val) :
    (iblk0 V c 1 t : Vec Ideal S5000x128 .f32) y = (V c main_arg0 : Vec Ideal S50000x128 .f32) i := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The left weight window's one block is its whole array. -/
theorem blk2_eq (c : Dev nD) (t : Fin cfg0.N) :
    (iblk0 V c 2 t : Vec Ideal S128x256 .f32) = (V c main_arg2 : Vec Ideal S128x256 .f32) := by
  obtain ⟨-, -, -, -, e0, e1, -⟩ := idx_facts t
  funext y
  unfold iblk0
  rw [View.read_apply]
  show V c main_arg2 _ = V c main_arg2 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- The right weight window's one block is its whole array. -/
theorem blk3_eq (c : Dev nD) (t : Fin cfg0.N) :
    (iblk0 V c 3 t : Vec Ideal S128x256 .f32) = (V c main_arg3 : Vec Ideal S128x256 .f32) := by
  obtain ⟨-, -, -, -, -, -, e0, e1, -⟩ := idx_facts t
  funext y
  unfold iblk0
  rw [View.read_apply]
  show V c main_arg3 _ = V c main_arg3 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias window's one block is its whole one-row array. -/
theorem blk4_eq (c : Dev nD) (t : Fin cfg0.N) :
    (iblk0 V c 4 t : Vec Ideal S1x256 .f32) = (V c main_v23 : Vec Ideal S1x256 .f32) := by
  obtain ⟨-, -, -, -, -, -, -, -, e0, e1, -⟩ := idx_facts t
  funext y
  unfold iblk0
  rw [View.read_apply]
  show V c main_v23 _ = V c main_v23 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- The region's output as one function of the arrays it is entered with. -/
def out (c : Dev nD) : Vec Ideal S50000x256 .f32 :=
  reluSage (V c main_v22 : Vec Ideal S50000x128 .f32) (V c main_arg0 : Vec Ideal S50000x128 .f32)
    (V c main_arg2 : Vec Ideal S128x256 .f32) (V c main_arg3 : Vec Ideal S128x256 .f32)
    (fun j => (V c main_v23 : Vec Ideal S1x256 .f32) (ix2 (0 : Fin 1) j))

/-- An index of the output is in point t's block iff its row is among the block's rows. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v24).slice (win0_5.rect t)).set ↔ _
  rw [View.set_slice_whole, Rect.mem_set_unit]
  exact Iff.rfl

/-- Every index of the output lies in the block of the point (row / 5000). -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0]; show (i 0).val / 5000 * 5000 ≤ (i 0).val ∧ (i 0).val < (i 0).val / 5000 * 5000 + 5000; omega
  | ⟨1, _⟩ =>
    show win0_5.index t (1 : Fin 2) * 256 ≤ (i 1).val ∧ (i 1).val < win0_5.index t (1 : Fin 2) * 256 + 256
    rw [e1]; omega

end Cert.KernelIdeal.Layer0

end
-- ==== Proof.KLayer0.lean ====
/-
  What the first region leaves in its output array, as one function of the arrays it is entered with: point t writes
  back block t of `Layer0.out`, the blocks cover the array, so the array ends at `Layer0.out`.
-/
import proofs.«147264_j69286412419426_1_alg».proof.Proof.KLayer0a

set_option maxRecDepth 16384

noncomputable section

namespace Cert.KernelIdeal.Layer0

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What point t writes back is block t of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  rw [blk2_eq, blk3_eq, blk4_eq]
  obtain ⟨-, -, -, -, -, -, -, -, -, -, e0, e1⟩ := idx_facts t
  have ht := t_lt t
  funext y
  obtain ⟨r, j, rfl⟩ : ∃ (r : Fin 5000) (j : Fin 256), y = ix2 r j := ⟨y 0, y 1, eq_ix2 y⟩
  have he : ((cfg0.win 5).blk t).view.emb (ix2 r j) = ix2 (⟨5000 * t.val + r.val, by have := r.isLt; omega⟩ : Fin 50000) j := by
    funext a
    apply Fin.ext
    match a with
    | ⟨0, _⟩ => show win0_5.index t (0 : Fin 2) * 5000 + 1 * r.val = 5000 * t.val + r.val; rw [e0]; omega
    | ⟨1, _⟩ => show win0_5.index t (1 : Fin 2) * 256 + 1 * j.val = j.val; rw [e1]; omega
  refine (pay_apply _ _ _ _ _ r j).trans ?_
  show _ = out V c (((cfg0.win 5).blk t).view.emb (ix2 r j))
  rw [he]
  unfold out
  rw [reluSage_apply]
  refine congrArg (fun z => max z (Ideal.ofBits .f32 0x00000000#32)) ?_
  refine sageAt_congr _ _ _ _ _ _ _ r _ (fun k => ?_) (fun k => ?_) j
  · exact blk0_apply V c t (ix2 r k) (ix2 (⟨5000 * t.val + r.val, by have := r.isLt; omega⟩ : Fin 50000) k) rfl rfl
  · exact blk1_apply V c t (ix2 r k) (ix2 (⟨5000 * t.val + r.val, by have := r.isLt; omega⟩ : Fin 50000) k) rfl rfl

/-- The output array after the region: `out` of the arrays the region was entered with. -/
theorem final (c : Dev nD) : (dat0 V c).arrAt 5 cfg0.N = out V c :=
  (dat0 V c).arrAt_eq_of_cover 5 (out V c) (fun t _ => flushed_eq V c t) cover

end Cert.KernelIdeal.Layer0

end
-- ==== Proof.KLayer1a.lean ====
/-
  The second region's blocks: what its body stores at an entry, where each window's block sits in its array, and
  that the output's blocks cover the output array. (The array the region leaves is read off these in the next module.)

  The region runs ten points; point t takes rows 5000 t … 5000 t + 4999 of the neighbour-mean array and of the
  first-layer-output array, the two weight matrices and the one-row bias whole, and writes rows 5000 t … 5000 t + 4999 of the
  output. Entry (r, j) of the block it writes is
      max ((mean_blk · Wl)(r, j) + (x_blk · Wr)(r, j) + b (0, j)) 0,
  and row r of a block at point t is row 5000 t + r of the array, so the ten blocks together are the rows of
  `reluSage mean x Wl Wr b`: every row of the output lies in exactly the block of the point (row / 5000).
-/
import proofs.«147264_j69286412419426_1_alg».proof.Proof.Gen.KernelIdeal.Frame
import proofs.«147264_j69286412419426_1_alg».proof.Proof.LibDense
import Idealize.ShloMosaic.Lib.Pipeline.Value

set_option maxRecDepth 16384

noncomputable section

namespace Cert.KernelIdeal.Layer1

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, j): the layer's entry over the point's blocks, then `max · 0`. -/
theorem pay_apply (x0 x1 : Vec Ideal S5000x256 .f32) (x2 x3 : Vec Ideal S256x256 .f32) (x4 : Vec Ideal S1x256 .f32)
    (r : Fin 5000) (j : Fin 256) :
    k1_pay1 (F := Ideal) x0 x1 x2 x3 x4 (ix2 r j)
      = max (sageAt x0 x1 x2 x3 (fun j => x4 (ix2 (0 : Fin 1) j)) r j) (Ideal.ofBits .f32 0x00000000#32) := by
  unfold k1_pay1
  simp only [shapeCast_self]
  exact congrArg (fun z => max z (Ideal.ofBits .f32 0x00000000#32))
    (sage_block_apply dot_S5000x256_S256x256_S5000x256_1_0_0_1_n_n rfl x0 x1 x2 x3 x4 _ _ _ _ _ r j)

/-- The index maps over the ten points: the row-blocked windows (mean, features, output) are at block (t, 0), the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 10 := by
  exact lt_of_lt_of_eq t.isLt (show cfg1.N = 10 from N_1)

/-- Row r of the neighbour-mean window's block at point t is row 5000 t + r of its array. -/
theorem blk0_apply (c : Dev nD) (t : Fin cfg1.N) (y : S5000x256.Idx) (i : S50000x256.Idx)
    (h0 : (i 0).val = 5000 * t.val + (y 0).val) (h1 : (i 1).val = (y 1).val) :
    (iblk1 V c 0 t : Vec Ideal S5000x256 .f32) y = (V c main_v43 : Vec Ideal S50000x256 .f32) i := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 256 + 1 * (y 1).val = (i 1).val; rw [e1, h1]; omega

/-- Row r of the first-layer-output window's block at point t is row 5000 t + r of its array. -/
theorem blk1_apply (c : Dev nD) (t : Fin cfg1.N) (y : S5000x256.Idx) (i : S50000x256.Idx)
    (h0 : (i 0).val = 5000 * t.val + (y 0).val) (h1 : (i 1).val = (y 1).val) :
    (iblk1 V c 1 t : Vec Ideal S5000x256 .f32) y = (V c main_v24 : Vec Ideal S50000x256 .f32) i := by
  obtain ⟨-, -, e0, e1, -⟩ := idx_facts t
  unfold iblk1
  rw [View.read_apply]
  show V c main_v24 _ = V c main_v24 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 256 + 1 * (y 1).val = (i 1).val; rw [e1, h1]; omega

/-- The left weight window's one block is its whole array. -/
theorem blk2_eq (c : Dev nD) (t : Fin cfg1.N) :
    (iblk1 V c 2 t : Vec Ideal S256x256 .f32) = (V c main_arg5 : Vec Ideal S256x256 .f32) := by
  obtain ⟨-, -, -, -, e0, e1, -⟩ := idx_facts t
  funext y
  unfold iblk1
  rw [View.read_apply]
  show V c main_arg5 _ = V c main_arg5 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The right weight window's one block is its whole array. -/
theorem blk3_eq (c : Dev nD) (t : Fin cfg1.N) :
    (iblk1 V c 3 t : Vec Ideal S256x256 .f32) = (V c main_arg6 : Vec Ideal S256x256 .f32) := by
  obtain ⟨-, -, -, -, -, -, e0, e1, -⟩ := idx_facts t
  funext y
  unfold iblk1
  rw [View.read_apply]
  show V c main_arg6 _ = V c main_arg6 _
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The bias window's one block is its whole one-row array. -/
theorem blk4_eq (c : Dev nD) (t : Fin cfg1.N) :
    (iblk1 V c 4 t : Vec Ideal S1x256 .f32) = (V c main_v44 : Vec Ideal S1x256 .f32) := by
  obtain ⟨-, -, -, -, -, -, -, -, e0, e1, -⟩ := idx_facts t
  funext y
  unfold iblk1
  rw [View.read_apply]
  show V c main_v44 _ = V c main_v44 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The region's output as one function of the arrays it is entered with. -/
def out (c : Dev nD) : Vec Ideal S50000x256 .f32 :=
  reluSage (V c main_v43 : Vec Ideal S50000x256 .f32) (V c main_v24 : Vec Ideal S50000x256 .f32)
    (V c main_arg5 : Vec Ideal S256x256 .f32) (V c main_arg6 : Vec Ideal S256x256 .f32)
    (fun j => (V c main_v44 : Vec Ideal S1x256 .f32) (ix2 (0 : Fin 1) j))

/-- An index of the output is in point t's block iff its row is among the block's rows. -/
theorem mem_blk (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v45).slice (win1_5.rect t)).set ↔ _
  rw [View.set_slice_whole, Rect.mem_set_unit]
  exact Iff.rfl

/-- Every index of the output lies in the block of the point (row / 5000). -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 5000, by rw [show cfg1.N = 10 from N_1]; omega⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 256 ≤ (i 1).val ∧ (i 1).val < win1_5.index t (1 : Fin 2) * 256 + 256
    rw [e1]; omega

end Cert.KernelIdeal.Layer1

end
-- ==== Proof.KLayer1.lean ====
/-
  What the second region leaves in its output array, as one function of the arrays it is entered with: point t writes
  back block t of `Layer1.out`, the blocks cover the array, so the array ends at `Layer1.out`.
-/
import proofs.«147264_j69286412419426_1_alg».proof.Proof.KLayer1a

set_option maxRecDepth 16384

noncomputable section

namespace Cert.KernelIdeal.Layer1

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What point t writes back is block t of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x256) hz, View.ld_unit_zero (S := S1x256) hz]
  rw [blk2_eq, blk3_eq, blk4_eq]
  obtain ⟨-, -, -, -, -, -, -, -, -, -, e0, e1⟩ := idx_facts t
  have ht := t_lt t
  funext y
  obtain ⟨r, j, rfl⟩ : ∃ (r : Fin 5000) (j : Fin 256), y = ix2 r j := ⟨y 0, y 1, eq_ix2 y⟩
  have he : ((cfg1.win 5).blk t).view.emb (ix2 r j) = ix2 (⟨5000 * t.val + r.val, by have := r.isLt; omega⟩ : Fin 50000) j := by
    funext a
    apply Fin.ext
    match a with
    | ⟨0, _⟩ => show win1_5.index t (0 : Fin 2) * 5000 + 1 * r.val = 5000 * t.val + r.val; rw [e0]; omega
    | ⟨1, _⟩ => show win1_5.index t (1 : Fin 2) * 256 + 1 * j.val = j.val; rw [e1]; omega
  refine (pay_apply _ _ _ _ _ r j).trans ?_
  show _ = out V c (((cfg1.win 5).blk t).view.emb (ix2 r j))
  rw [he]
  unfold out
  rw [reluSage_apply]
  refine congrArg (fun z => max z (Ideal.ofBits .f32 0x00000000#32)) ?_
  refine sageAt_congr _ _ _ _ _ _ _ r _ (fun k => ?_) (fun k => ?_) j
  · exact blk0_apply V c t (ix2 r k) (ix2 (⟨5000 * t.val + r.val, by have := r.isLt; omega⟩ : Fin 50000) k) rfl rfl
  · exact blk1_apply V c t (ix2 r k) (ix2 (⟨5000 * t.val + r.val, by have := r.isLt; omega⟩ : Fin 50000) k) rfl rfl

/-- The output array after the region: `out` of the arrays the region was entered with. -/
theorem final (c : Dev nD) : (dat1 V c).arrAt 5 cfg1.N = out V c :=
  (dat1 V c).arrAt_eq_of_cover 5 (out V c) (fun t _ => flushed_eq V c t) cover

end Cert.KernelIdeal.Layer1

end
-- ==== Proof.KLayer2a.lean ====
/-
  The third region's blocks: what its body stores at an entry, where each window's block sits in its array, and
  that the output's blocks cover the output array. (The array the region leaves is read off these in the next module.)

  The region runs ten points; point t takes rows 5000 t … 5000 t + 4999 of the neighbour-mean array and of the
  second layer's output, the layer's two weight matrices and one-row bias whole, the head's weight matrix and one-row
  bias whole, and writes rows 5000 t … 5000 t + 4999 of the two-column result. Entry (r, j) of the block it writes is
      (h_blk · Wout)(r, j) + bout (0, j),     h_blk (r, c) = (mean_blk · Wl)(r, c) + (x_blk · Wr)(r, c) + b (0, c),
  the cut of `h_blk` to bf16 before the head's product being the identity on the ideal values. Row r of a block at
  point t is row 5000 t + r of the array, and every row of the result lies in the block of the point (row / 5000).
-/
import proofs.«147264_j69286412419426_1_alg».proof.Proof.Gen.KernelIdeal.Frame
import proofs.«147264_j69286412419426_1_alg».proof.Proof.LibDense
import Idealize.ShloMosaic.Lib.Pipeline.Value

set_option maxRecDepth 16384

noncomputable section

namespace Cert.KernelIdeal.Layer2

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, j): the head's entry over the layer computed on the point's blocks. -/
theorem pay_apply (x0 x1 : Vec Ideal S5000x256 .f32) (x2 x3 : Vec Ideal S256x128 .f32) (x4 : Vec Ideal S1x128 .f32)
    (x5 : Vec Ideal S128x2 .f32) (x6 : Vec Ideal S1x2 .f32) (r : Fin 5000) (j : Fin 2) :
    k2_pay1 (F := Ideal) x0 x1 x2 x3 x4 x5 x6 (ix2 r j)
      = headAt (sage x0 x1 x2 x3 (fun j => x4 (ix2 (0 : Fin 1) j))) x5 (fun j => x6 (ix2 (0 : Fin 1) j)) r j := by
  unfold k2_pay1
  simp only [shapeCast_self]
  refine (head_block_apply dot_S5000x128_S128x2_S5000x2_1_0_0_1_n_n rfl _ x5 x6 _ _ _ r j).trans ?_
  refine headAt_congr _ _ _ _ r r (fun c => ?_) j
  exact sage_block_apply dot_S5000x256_S256x128_S5000x128_1_0_0_1_n_n rfl x0 x1 x2 x3 x4 _ _ _ _ _ r c

/-- The index maps over the ten points: the row-blocked windows (mean, second-layer output, result) are at block
    (t, 0), the weights and the biases at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem t_lt (t : Fin cfg2.N) : t.val < 10 :=
  lt_of_lt_of_eq t.isLt (show cfg2.N = 10 from N_2)

/-- Row r of the neighbour-mean window's block at point t is row 5000 t + r of its array. -/
theorem blk0_apply (c : Dev nD) (t : Fin cfg2.N) (y : S5000x256.Idx) (i : S50000x256.Idx)
    (h0 : (i 0).val = 5000 * t.val + (y 0).val) (h1 : (i 1).val = (y 1).val) :
    (iblk2 V c 0 t : Vec Ideal S5000x256 .f32) y = (V c main_v64 : Vec Ideal S50000x256 .f32) i := by
  obtain ⟨e0, e1, -⟩ := idx_facts t
  unfold iblk2
  rw [View.read_apply]
  show V c main_v64 _ = V c main_v64 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 256 + 1 * (y 1).val = (i 1).val; rw [e1, h1]; omega

/-- Row r of the second-layer-output window's block at point t is row 5000 t + r of its array. -/
theorem blk1_apply (c : Dev nD) (t : Fin cfg2.N) (y : S5000x256.Idx) (i : S50000x256.Idx)
    (h0 : (i 0).val = 5000 * t.val + (y 0).val) (h1 : (i 1).val = (y 1).val) :
    (iblk2 V c 1 t : Vec Ideal S5000x256 .f32) y = (V c main_v45 : Vec Ideal S50000x256 .f32) i := by
  obtain ⟨-, -, e0, e1, -⟩ := idx_facts t
  unfold iblk2
  rw [View.read_apply]
  show V c main_v45 _ = V c main_v45 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 256 + 1 * (y 1).val = (i 1).val; rw [e1, h1]; omega

/-- The left weight window's one block is its whole array. -/
theorem blk2_eq (c : Dev nD) (t : Fin cfg2.N) :
    (iblk2 V c 2 t : Vec Ideal S256x128 .f32) = (V c main_arg8 : Vec Ideal S256x128 .f32) := by
  obtain ⟨-, -, -, -, e0, e1, -⟩ := idx_facts t
  funext y
  unfold iblk2
  rw [View.read_apply]
  show V c main_arg8 _ = V c main_arg8 _
  congr 1
  funext a
  apply Fin.ext
  match a with
  | ⟨0, _⟩ => show win2_2.index t (0 : Fin 2) * 256 + 1 * (y 0).val = (y 0).val; rw [e0]; omega
  | ⟨1, _⟩ => show win2_2.index t (1 : Fin 2) * 128 + 1 * (y 1).val = (y 1).val; rw [e1]; omega

/-- The right weight window's one block is its whole array. -/
theorem blk3_eq (c : Dev nD) (t : Fin cfg2.N) :
    (iblk2 V c 3 t : Vec Ideal S256x128 .f32) = (V c main_arg9 : Vec Ideal S256x128 .f32) := by
  obtain ⟨-, -, -, -, -, -, e0, e1, -⟩ := idx_facts t
  funext y
  unfold iblk2
  rw [View.read_apply]
  show V c main_arg9 _ = V c main_arg9 _
  congr 1
  funext a
  apply Fin.ext
  match a with
  | ⟨0, _⟩ => show win2_3.index t (0 : Fin 2) * 256 + 1 * (y 0).val = (y 0).val; rw [e0]; omega
  | ⟨1, _⟩ => show win2_3.index t (1 : Fin 2) * 128 + 1 * (y 1).val = (y 1).val; rw [e1]; omega

/-- The layer's bias window's one block is its whole one-row array. -/
theorem blk4_eq (c : Dev nD) (t : Fin cfg2.N) :
    (iblk2 V c 4 t : Vec Ideal S1x128 .f32) = (V c main_v65 : Vec Ideal S1x128 .f32) := by
  obtain ⟨-, -, -, -, -, -, -, -, e0, e1, -⟩ := idx_facts t
  funext y
  unfold iblk2
  rw [View.read_apply]
  show V c main_v65 _ = V c main_v65 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The head's weight window's one block is its whole array. -/
theorem blk5_eq (c : Dev nD) (t : Fin cfg2.N) :
    (iblk2 V c 5 t : Vec Ideal S128x2 .f32) = (V c main_arg11 : Vec Ideal S128x2 .f32) := by
  obtain ⟨-, -, -, -, -, -, -, -, -, -, e0, e1, -⟩ := idx_facts t
  funext y
  unfold iblk2
  rw [View.read_apply]
  show V c main_arg11 _ = V c main_arg11 _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 2 + 1 * (y 1).val = (y 1).val; rw [e1]; omega

/-- The head's bias window's one block is its whole one-row array. -/
theorem blk6_eq (c : Dev nD) (t : Fin cfg2.N) :
    (iblk2 V c 6 t : Vec Ideal S1x2 .f32) = (V c main_v66 : Vec Ideal S1x2 .f32) := by
  obtain ⟨-, -, -, -, -, -, -, -, -, -, -, -, e0, e1, -⟩ := idx_facts t
  funext y
  unfold iblk2
  rw [View.read_apply]
  show V c main_v66 _ = V c main_v66 _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 2 + 1 * (y 1).val = (y 1).val; rw [e1]; omega

/-- The region's result as one function of the arrays it is entered with. -/
def out (c : Dev nD) : Vec Ideal S50000x2 .f32 :=
  head (sage (V c main_v64 : Vec Ideal S50000x256 .f32) (V c main_v45 : Vec Ideal S50000x256 .f32)
      (V c main_arg8 : Vec Ideal S256x128 .f32) (V c main_arg9 : Vec Ideal S256x128 .f32)
      (fun j => (V c main_v65 : Vec Ideal S1x128 .f32) (ix2 (0 : Fin 1) j)))
    (V c main_arg11 : Vec Ideal S128x2 .f32) (fun j => (V c main_v66 : Vec Ideal S1x2 .f32) (ix2 (0 : Fin 1) j))

/-- An index of the result is in point t's block iff its row is among the block's rows. -/
theorem mem_blk (t : Fin cfg2.N) (i : S50000x2.Idx) :
    i ∈ ((cfg2.win 7).blk t).view.set ↔ ∀ a : Fin 2, win2_7.index t a * S5000x2.size a ≤ (i a).val ∧ (i a).val < win2_7.index t a * S5000x2.size a + S5000x2.size a := by
  show i ∈ ((View.whole main_v67).slice (win2_7.rect t)).set ↔ _
  rw [View.set_slice_whole, Rect.mem_set_unit]
  exact Iff.rfl

/-- Every index of the result lies in the block of the point (row / 5000). -/
theorem cover (i : S50000x2.Idx) : ∃ t : Fin cfg2.N, (cfg2.win 7).flush t = true ∧ i ∈ ((cfg2.win 7).blk t).view.set := by
  have hi0 : (i 0).val < 50000 := (i 0).isLt
  have hi1 : (i 1).val < 2 := (i 1).isLt
  let t : Fin cfg2.N := ⟨(i 0).val / 5000, by rw [show cfg2.N = 10 from N_2]; omega⟩
  obtain ⟨-, -, -, -, -, -, -, -, -, -, -, -, -, -, e0, e1⟩ := idx_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    rw [e0]; show (i 0).val / 5000 * 5000 ≤ (i 0).val ∧ (i 0).val < (i 0).val / 5000 * 5000 + 5000; omega
  | ⟨1, _⟩ =>
    show win2_7.index t (1 : Fin 2) * 2 ≤ (i 1).val ∧ (i 1).val < win2_7.index t (1 : Fin 2) * 2 + 2
    rw [e1]; omega

end Cert.KernelIdeal.Layer2

end
-- ==== Proof.KLayer2.lean ====
/-
  What the third region leaves in the result array, as one function of the arrays it is entered with: point t writes
  back block t of `Layer2.out`, the blocks cover the array, so the array ends at `Layer2.out`.
-/
import proofs.«147264_j69286412419426_1_alg».proof.Proof.KLayer2a

set_option maxRecDepth 16384

noncomputable section

namespace Cert.KernelIdeal.Layer2

open Cert.KernelIdeal Cert.KernelIdeal.Gen Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What point t writes back is block t of `out`. -/
theorem flushed_eq (c : Dev nD) (t : Fin cfg2.N) :
    (dat2 V c).flushed 7 t = ((cfg2.win 7).blk t).view.read (Elt Ideal) (out V c) := by
  show (cfg2.win 7).cut (grid2.coords t) ((dat2 V c).after 7 t) = _
  rw [after2_7]
  unfold out2_7
  rw [View.canon_unit_zero hz]
  simp only [View.ld_unit_zero (S := S5000x256) hz, View.ld_unit_zero (S := S256x128) hz, View.ld_unit_zero (S := S1x128) hz,
    View.ld_unit_zero (S := S128x2) hz, View.ld_unit_zero (S := S1x2) hz]
  rw [blk2_eq, blk3_eq, blk4_eq, blk5_eq, blk6_eq]
  obtain ⟨-, -, -, -, -, -, -, -, -, -, -, -, -, -, e0, e1⟩ := idx_facts t
  have ht := t_lt t
  funext y
  obtain ⟨r, j, rfl⟩ : ∃ (r : Fin 5000) (j : Fin 2), y = ix2 r j := ⟨y 0, y 1, eq_ix2 y⟩
  have he : ((cfg2.win 7).blk t).view.emb (ix2 r j) = ix2 (⟨5000 * t.val + r.val, by have := r.isLt; omega⟩ : Fin 50000) j := by
    funext a
    apply Fin.ext
    match a with
    | ⟨0, _⟩ => show win2_7.index t (0 : Fin 2) * 5000 + 1 * r.val = 5000 * t.val + r.val; rw [e0]; omega
    | ⟨1, _⟩ => show win2_7.index t (1 : Fin 2) * 2 + 1 * j.val = j.val; rw [e1]; omega
  refine (pay_apply _ _ _ _ _ _ _ r j).trans ?_
  show _ = out V c (((cfg2.win 7).blk t).view.emb (ix2 r j))
  rw [he]
  unfold out
  rw [head_apply]
  refine headAt_congr _ _ _ _ r _ (fun k => ?_) j
  rw [sage_apply, sage_apply]
  refine sageAt_congr _ _ _ _ _ _ _ r _ (fun k' => ?_) (fun k' => ?_) k
  · exact blk0_apply V c t (ix2 r k') (ix2 (⟨5000 * t.val + r.val, by have := r.isLt; omega⟩ : Fin 50000) k') rfl rfl
  · exact blk1_apply V c t (ix2 r k') (ix2 (⟨5000 * t.val + r.val, by have := r.isLt; omega⟩ : Fin 50000) k') rfl rfl

/-- The result array after the region: `out` of the arrays the region was entered with. -/
theorem final (c : Dev nD) : (dat2 V c).arrAt 7 cfg2.N = out V c :=
  (dat2 V c).arrAt_eq_of_cover 7 (out V c) (fun t _ => flushed_eq V c t) cover

end Cert.KernelIdeal.Layer2

end
-- ==== Proof.KHost.lean ====
/-
  The host operations between the regions, read at the buffers the regions take.

  Each stretch of host operations is the same chain in the kernel's program and in the reference: the edge list is cut
  into sources and targets, a negative source index wrapped by adding the node count, the rows gathered at the sources
  and summed into their targets, the edge counts summed likewise, and the sums divided by `max count 1`. So what a
  stretch leaves in the neighbour-mean buffer is the reference's neighbour-mean stage of the same operands; its bias
  buffer is the bias vector cast to one row; every other buffer it leaves as it found it.
-/
import proofs.«147264_j69286412419426_1_alg».proof.Proof.Gen.KernelIdeal.Launch
import proofs.«147264_j69286412419426_1_alg».proof.Proof.Gen.ReferenceIdeal.Read
import Idealize.ShloMosaic.Lib.StableHlo.Run

noncomputable section

namespace Cert.KernelIdeal.HostStretch

open Cert.KernelIdeal Cert.KernelIdeal.Gen Cert.ReferenceIdeal.Read
open Idealize.ShloMosaic Idealize.ShloMosaic.TcCoe Idealize.ShloMosaic.StableHlo Idealize.SL.Sem

variable (W : Valuation τ sig (Elt Ideal))

/-! ## Before the first region -/

/-- The neighbour mean of the features. -/
theorem s0_v22 : StableHlo.after (hostOps0 (F := Ideal)) W (Proc.devRef .tc main_v22)
    = val_main_v22 (F := Ideal) (W (Proc.devRef .tc main_arg0)) (W (Proc.devRef .tc main_arg1)) := by
  after_results_simp
  simp only [val_main_v22, val_main_v21, val_main_v20, val_main_v19, val_main_v18, val_main_cst_3, val_main_v17, val_main_v16, val_main_v15, val_main_cst_2, val_main_v14, val_main_cst_1, val_main_v13, val_main_v12, val_main_v11, val_main_cst, val_main_v10, val_main_v9, val_main_v8, val_main_v7, val_main_v6, val_main_c_0, val_main_v5, val_main_v4, val_main_c, val_main_v3, val_main_v2, val_main_v1, val_main_v0]
  rfl

/-- The first bias as one row. -/
theorem s0_v23 : StableHlo.after (hostOps0 (F := Ideal)) W (Proc.devRef .tc main_v23)
    = shapeCast S1x256 (W (Proc.devRef .tc main_arg4)) shapeCasts_S256_S1x256 := by
  after_results_simp
  rfl

/-- The edge sources. -/
theorem s0_v1 : StableHlo.after (hostOps0 (F := Ideal)) W (Proc.devRef .tc main_v1) = val_main_v1 (F := Ideal) (W (Proc.devRef .tc main_arg1)) := by
  after_results_simp
  simp only [val_main_v1, val_main_v0]
  rfl

/-- The edge targets. -/
theorem s0_v3 : StableHlo.after (hostOps0 (F := Ideal)) W (Proc.devRef .tc main_v3) = val_main_v3 (F := Ideal) (W (Proc.devRef .tc main_arg1)) := by
  after_results_simp
  simp only [val_main_v3, val_main_v2]
  rfl

theorem s0_arg0 : StableHlo.after (hostOps0 (F := Ideal)) W (Proc.devRef .tc main_arg0) = W (Proc.devRef .tc main_arg0) := by
  after_results_simp

theorem s0_arg2 : StableHlo.after (hostOps0 (F := Ideal)) W (Proc.devRef .tc main_arg2) = W (Proc.devRef .tc main_arg2) := by
  after_results_simp

theorem s0_arg3 : StableHlo.after (hostOps0 (F := Ideal)) W (Proc.devRef .tc main_arg3) = W (Proc.devRef .tc main_arg3) := by
  after_results_simp

theorem s0_arg5 : StableHlo.after (hostOps0 (F := Ideal)) W (Proc.devRef .tc main_arg5) = W (Proc.devRef .tc main_arg5) := by
  after_results_simp

theorem s0_arg6 : StableHlo.after (hostOps0 (F := Ideal)) W (Proc.devRef .tc main_arg6) = W (Proc.devRef .tc main_arg6) := by
  after_results_simp

theorem s0_arg7 : StableHlo.after (hostOps0 (F := Ideal)) W (Proc.devRef .tc main_arg7) = W (Proc.devRef .tc main_arg7) := by
  after_results_simp

theorem s0_arg8 : StableHlo.after (hostOps0 (F := Ideal)) W (Proc.devRef .tc main_arg8) = W (Proc.devRef .tc main_arg8) := by
  after_results_simp

theorem s0_arg9 : StableHlo.after (hostOps0 (F := Ideal)) W (Proc.devRef .tc main_arg9) = W (Proc.devRef .tc main_arg9) := by
  after_results_simp

theorem s0_arg10 : StableHlo.after (hostOps0 (F := Ideal)) W (Proc.devRef .tc main_arg10) = W (Proc.devRef .tc main_arg10) := by
  after_results_simp

theorem s0_arg11 : StableHlo.after (hostOps0 (F := Ideal)) W (Proc.devRef .tc main_arg11) = W (Proc.devRef .tc main_arg11) := by
  after_results_simp

theorem s0_arg12 : StableHlo.after (hostOps0 (F := Ideal)) W (Proc.devRef .tc main_arg12) = W (Proc.devRef .tc main_arg12) := by
  after_results_simp

/-! ## Between the first and the second region -/

/-- The neighbour mean of the first layer's output. -/
theorem s1_v43 (x0 : (⟨Cert.ReferenceIdeal.S50000x128, .f32⟩ : BufTy).Contents (Elt Ideal)) (x1 : (⟨Cert.ReferenceIdeal.S2x600000, .i32⟩ : BufTy).Contents (Elt Ideal))
    (x2 x3 : (⟨Cert.ReferenceIdeal.S128x256, .f32⟩ : BufTy).Contents (Elt Ideal)) (x4 : (⟨Cert.ReferenceIdeal.S256, .f32⟩ : BufTy).Contents (Elt Ideal))
    (h24 : W (Proc.devRef .tc main_v24) = val_main_v29 (F := Ideal) x0 x1 x2 x3 x4)
    (h1 : W (Proc.devRef .tc main_v1) = val_main_v1 (F := Ideal) x1) (h3 : W (Proc.devRef .tc main_v3) = val_main_v3 (F := Ideal) x1) :
    StableHlo.after (hostOps1 (F := Ideal)) W (Proc.devRef .tc main_v43) = val_main_v48 (F := Ideal) x0 x1 x2 x3 x4 := by
  after_results_simp
  rw [h24, h1, h3]
  simp only [val_main_v48, val_main_v47, val_main_v46, val_main_v45, val_main_v44, val_main_cst_9, val_main_v43, val_main_v42, val_main_v41, val_main_cst_8, val_main_v40, val_main_cst_7, val_main_v39, val_main_v38, val_main_v37, val_main_cst_6, val_main_v36, val_main_v35, val_main_v34, val_main_v33, val_main_v32, val_main_c_5, val_main_v31, val_main_v30, val_main_c_4]
  rfl

/-- The second bias as one row. -/
theorem s1_v44 : StableHlo.after (hostOps1 (F := Ideal)) W (Proc.devRef .tc main_v44)
    = shapeCast S1x256 (W (Proc.devRef .tc main_arg7)) shapeCasts_S256_S1x256 := by
  after_results_simp
  rfl

theorem s1_v24 : StableHlo.after (hostOps1 (F := Ideal)) W (Proc.devRef .tc main_v24) = W (Proc.devRef .tc main_v24) := by
  after_results_simp

theorem s1_v1 : StableHlo.after (hostOps1 (F := Ideal)) W (Proc.devRef .tc main_v1) = W (Proc.devRef .tc main_v1) := by
  after_results_simp

theorem s1_v3 : StableHlo.after (hostOps1 (F := Ideal)) W (Proc.devRef .tc main_v3) = W (Proc.devRef .tc main_v3) := by
  after_results_simp

theorem s1_arg5 : StableHlo.after (hostOps1 (F := Ideal)) W (Proc.devRef .tc main_arg5) = W (Proc.devRef .tc main_arg5) := by
  after_results_simp

theorem s1_arg6 : StableHlo.after (hostOps1 (F := Ideal)) W (Proc.devRef .tc main_arg6) = W (Proc.devRef .tc main_arg6) := by
  after_results_simp

theorem s1_arg8 : StableHlo.after (hostOps1 (F := Ideal)) W (Proc.devRef .tc main_arg8) = W (Proc.devRef .tc main_arg8) := by
  after_results_simp

theorem s1_arg9 : StableHlo.after (hostOps1 (F := Ideal)) W (Proc.devRef .tc main_arg9) = W (Proc.devRef .tc main_arg9) := by
  after_results_simp

theorem s1_arg10 : StableHlo.after (hostOps1 (F := Ideal)) W (Proc.devRef .tc main_arg10) = W (Proc.devRef .tc main_arg10) := by
  after_results_simp

theorem s1_arg11 : StableHlo.after (hostOps1 (F := Ideal)) W (Proc.devRef .tc main_arg11) = W (Proc.devRef .tc main_arg11) := by
  after_results_simp

theorem s1_arg12 : StableHlo.after (hostOps1 (F := Ideal)) W (Proc.devRef .tc main_arg12) = W (Proc.devRef .tc main_arg12) := by
  after_results_simp

/-! ## Between the second and the third region -/

/-- The neighbour mean of the second layer's output. -/
theorem s2_v64 (x0 : (⟨Cert.ReferenceIdeal.S50000x128, .f32⟩ : BufTy).Contents (Elt Ideal)) (x1 : (⟨Cert.ReferenceIdeal.S2x600000, .i32⟩ : BufTy).Contents (Elt Ideal))
    (x2 x3 : (⟨Cert.ReferenceIdeal.S128x256, .f32⟩ : BufTy).Contents (Elt Ideal)) (x4 : (⟨Cert.ReferenceIdeal.S256, .f32⟩ : BufTy).Contents (Elt Ideal))
    (x5 x6 : (⟨Cert.ReferenceIdeal.S256x256, .f32⟩ : BufTy).Contents (Elt Ideal)) (x7 : (⟨Cert.ReferenceIdeal.S256, .f32⟩ : BufTy).Contents (Elt Ideal))
    (h45 : W (Proc.devRef .tc main_v45) = val_main_v55 (F := Ideal) x0 x1 x2 x3 x4 x5 x6 x7)
    (h1 : W (Proc.devRef .tc main_v1) = val_main_v1 (F := Ideal) x1) (h3 : W (Proc.devRef .tc main_v3) = val_main_v3 (F := Ideal) x1) :
    StableHlo.after (hostOps2 (F := Ideal)) W (Proc.devRef .tc main_v64) = val_main_v74 (F := Ideal) x0 x1 x2 x3 x4 x5 x6 x7 := by
  after_results_simp
  rw [h45, h1, h3]
  simp only [val_main_v74, val_main_v73, val_main_v72, val_main_v71, val_main_v70, val_main_cst_15, val_main_v69, val_main_v68, val_main_v67, val_main_cst_14, val_main_v66, val_main_cst_13, val_main_v65, val_main_v64, val_main_v63, val_main_cst_12, val_main_v62, val_main_v61, val_main_v60, val_main_v59, val_main_v58, val_main_c_11, val_main_v57, val_main_v56, val_main_c_10]
  rfl

/-- The third bias as one row. -/
theorem s2_v65 : StableHlo.after (hostOps2 (F := Ideal)) W (Proc.devRef .tc main_v65)
    = shapeCast S1x128 (W (Proc.devRef .tc main_arg10)) shapeCasts_S128_S1x128 := by
  after_results_simp
  rfl

/-- The head's bias as one row. -/
theorem s2_v66 : StableHlo.after (hostOps2 (F := Ideal)) W (Proc.devRef .tc main_v66)
    = shapeCast S1x2 (W (Proc.devRef .tc main_arg12)) shapeCasts_S2_S1x2 := by
  after_results_simp
  rfl

theorem s2_v45 : StableHlo.after (hostOps2 (F := Ideal)) W (Proc.devRef .tc main_v45) = W (Proc.devRef .tc main_v45) := by
  after_results_simp

theorem s2_arg8 : StableHlo.after (hostOps2 (F := Ideal)) W (Proc.devRef .tc main_arg8) = W (Proc.devRef .tc main_arg8) := by
  after_results_simp

theorem s2_arg9 : StableHlo.after (hostOps2 (F := Ideal)) W (Proc.devRef .tc main_arg9) = W (Proc.devRef .tc main_arg9) := by
  after_results_simp

theorem s2_arg11 : StableHlo.after (hostOps2 (F := Ideal)) W (Proc.devRef .tc main_arg11) = W (Proc.devRef .tc main_arg11) := by
  after_results_simp

end Cert.KernelIdeal.HostStretch

end
-- ==== Proof.RefLayers.lean ====
/-
  The reference's three layers, each as the dense-layer function of what enters it.

  Read at an entry (p, q), the reference's `dot_general`s are sums over the contracted coordinate of the products of
  the operands' entries (p, k) and (k, q); its bias is the vector broadcast first to one row and then down the rows, which
  at (p, q) is the vector's entry q; its `relu` is the maximum with the zero word. So the first two layers are
  `reluSage` and the third is `sage` followed by the linear head, over the neighbour-mean stage that precedes each.
-/
import proofs.«147264_j69286412419426_1_alg».proof.Proof.Gen.ReferenceIdeal.Read
import proofs.«147264_j69286412419426_1_alg».proof.Proof.LibDense

noncomputable section

namespace Cert.ReferenceIdeal.Layers

open Cert.ReferenceIdeal Cert.ReferenceIdeal.Read Cert.Dense
open Idealize.ShloMosaic Idealize.ShloMosaic.ValueIdx

variable (x0 : (⟨S50000x128, .f32⟩ : BufTy).Contents (Elt Ideal)) (x1 : (⟨S2x600000, .i32⟩ : BufTy).Contents (Elt Ideal))
  (x2 x3 : (⟨S128x256, .f32⟩ : BufTy).Contents (Elt Ideal)) (x4 : (⟨S256, .f32⟩ : BufTy).Contents (Elt Ideal))
  (x5 x6 : (⟨S256x256, .f32⟩ : BufTy).Contents (Elt Ideal)) (x7 : (⟨S256, .f32⟩ : BufTy).Contents (Elt Ideal))
  (x8 x9 : (⟨S256x128, .f32⟩ : BufTy).Contents (Elt Ideal)) (x10 : (⟨S128, .f32⟩ : BufTy).Contents (Elt Ideal))
  (x11 : (⟨S128x2, .f32⟩ : BufTy).Contents (Elt Ideal)) (x12 : (⟨S2, .f32⟩ : BufTy).Contents (Elt Ideal))

/-- The first layer: `relu (mean₁ · Wl1 + x · Wr1 + b1)`, `mean₁` the neighbour mean of the features. -/
theorem layer1 : val_main_v29 (F := Ideal) x0 x1 x2 x3 x4
    = reluSage (val_main_v22 (F := Ideal) x0 x1) x0 x2 x3 (fun j => x4 (ix1 j)) := by
  funext i
  obtain ⟨p, q, rfl⟩ : ∃ (p : Fin 50000) (q : Fin 256), i = ix2 p q := ⟨i 0, i 1, eq_ix2 i⟩
  rw [reluSage_apply, val_main_v29_apply, val_main_v28_apply, val_main_v25_apply, val_main_v23_apply, val_main_v24_apply,
    val_main_v27_apply, val_main_v26_apply, val_main_call0_v0_apply, val_main_call0_cst_apply]
  have el (k : Fin 128) : lidx_main_v23 (ix2 p q) k = ix2 p k :=
    funext fun a => Fin.ext (by match a with | ⟨0, _⟩ => rfl | ⟨1, _⟩ => rfl)
  have er (k : Fin 128) : ridx_main_v23 (ix2 p q) k = ix2 k q :=
    funext fun a => Fin.ext (by match a with | ⟨0, _⟩ => rfl | ⟨1, _⟩ => rfl)
  have el' (k : Fin 128) : lidx_main_v24 (ix2 p q) k = ix2 p k :=
    funext fun a => Fin.ext (by match a with | ⟨0, _⟩ => rfl | ⟨1, _⟩ => rfl)
  have er' (k : Fin 128) : ridx_main_v24 (ix2 p q) k = ix2 k q :=
    funext fun a => Fin.ext (by match a with | ⟨0, _⟩ => rfl | ⟨1, _⟩ => rfl)
  have eb : idx_main_v26 (idx_main_v27 (ix2 p q)) = ix1 q :=
    funext fun a => Fin.ext (by match a with | ⟨0, _⟩ => rfl)
  simp only [el, er, el', er', eb]
  rfl

/-- The second layer: `relu (mean₂ · Wl2 + h₁ · Wr2 + b2)`, `mean₂` the neighbour mean of the first layer's output. -/
theorem layer2 : val_main_v55 (F := Ideal) x0 x1 x2 x3 x4 x5 x6 x7
    = reluSage (val_main_v48 (F := Ideal) x0 x1 x2 x3 x4) (val_main_v29 (F := Ideal) x0 x1 x2 x3 x4) x5 x6 (fun j => x7 (ix1 j)) := by
  funext i
  obtain ⟨p, q, rfl⟩ : ∃ (p : Fin 50000) (q : Fin 256), i = ix2 p q := ⟨i 0, i 1, eq_ix2 i⟩
  rw [reluSage_apply, val_main_v55_apply, val_main_v54_apply, val_main_v51_apply, val_main_v49_apply, val_main_v50_apply,
    val_main_v53_apply, val_main_v52_apply, val_main_call1_v0_apply, val_main_call1_cst_apply]
  have el (k : Fin 256) : lidx_main_v49 (ix2 p q) k = ix2 p k :=
    funext fun a => Fin.ext (by match a with | ⟨0, _⟩ => rfl | ⟨1, _⟩ => rfl)
  have er (k : Fin 256) : ridx_main_v49 (ix2 p q) k = ix2 k q :=
    funext fun a => Fin.ext (by match a with | ⟨0, _⟩ => rfl | ⟨1, _⟩ => rfl)
  have el' (k : Fin 256) : lidx_main_v50 (ix2 p q) k = ix2 p k :=
    funext fun a => Fin.ext (by match a with | ⟨0, _⟩ => rfl | ⟨1, _⟩ => rfl)
  have er' (k : Fin 256) : ridx_main_v50 (ix2 p q) k = ix2 k q :=
    funext fun a => Fin.ext (by match a with | ⟨0, _⟩ => rfl | ⟨1, _⟩ => rfl)
  have eb : idx_main_v52 (idx_main_v53 (ix2 p q)) = ix1 q :=
    funext fun a => Fin.ext (by match a with | ⟨0, _⟩ => rfl)
  simp only [el, er, el', er', eb]
  rfl

/-- The third layer without its head: `mean₃ · Wl3 + h₂ · Wr3 + b3`. -/
theorem layer3 : val_main_v80 (F := Ideal) x0 x1 x2 x3 x4 x5 x6 x7 x8 x9 x10
    = sage (val_main_v74 (F := Ideal) x0 x1 x2 x3 x4 x5 x6 x7) (val_main_v55 (F := Ideal) x0 x1 x2 x3 x4 x5 x6 x7) x8 x9 (fun j => x10 (ix1 j)) := by
  funext i
  obtain ⟨p, q, rfl⟩ : ∃ (p : Fin 50000) (q : Fin 128), i = ix2 p q := ⟨i 0, i 1, eq_ix2 i⟩
  rw [sage_apply, val_main_v80_apply, val_main_v77_apply, val_main_v75_apply, val_main_v76_apply,
    val_main_v79_apply, val_main_v78_apply]
  have el (k : Fin 256) : lidx_main_v75 (ix2 p q) k = ix2 p k :=
    funext fun a => Fin.ext (by match a with | ⟨0, _⟩ => rfl | ⟨1, _⟩ => rfl)
  have er (k : Fin 256) : ridx_main_v75 (ix2 p q) k = ix2 k q :=
    funext fun a => Fin.ext (by match a with | ⟨0, _⟩ => rfl | ⟨1, _⟩ => rfl)
  have el' (k : Fin 256) : lidx_main_v76 (ix2 p q) k = ix2 p k :=
    funext fun a => Fin.ext (by match a with | ⟨0, _⟩ => rfl | ⟨1, _⟩ => rfl)
  have er' (k : Fin 256) : ridx_main_v76 (ix2 p q) k = ix2 k q :=
    funext fun a => Fin.ext (by match a with | ⟨0, _⟩ => rfl | ⟨1, _⟩ => rfl)
  have eb : idx_main_v78 (idx_main_v79 (ix2 p q)) = ix1 q :=
    funext fun a => Fin.ext (by match a with | ⟨0, _⟩ => rfl)
  simp only [el, er, el', er', eb]
  rfl

/-- The head on the third layer: `h₃ · Wout + bout`. -/
theorem out : val_main_v84 (F := Ideal) x0 x1 x2 x3 x4 x5 x6 x7 x8 x9 x10 x11 x12
    = head (val_main_v80 (F := Ideal) x0 x1 x2 x3 x4 x5 x6 x7 x8 x9 x10) x11 (fun j => x12 (ix1 j)) := by
  funext i
  obtain ⟨p, q, rfl⟩ : ∃ (p : Fin 50000) (q : Fin 2), i = ix2 p q := ⟨i 0, i 1, eq_ix2 i⟩
  rw [head_apply, val_main_v84_apply, val_main_v81_apply, val_main_v83_apply, val_main_v82_apply]
  have el (k : Fin 128) : lidx_main_v81 (ix2 p q) k = ix2 p k :=
    funext fun a => Fin.ext (by match a with | ⟨0, _⟩ => rfl | ⟨1, _⟩ => rfl)
  have er (k : Fin 128) : ridx_main_v81 (ix2 p q) k = ix2 k q :=
    funext fun a => Fin.ext (by match a with | ⟨0, _⟩ => rfl | ⟨1, _⟩ => rfl)
  have eb : idx_main_v82 (idx_main_v83 (ix2 p q)) = ix1 q :=
    funext fun a => Fin.ext (by match a with | ⟨0, _⟩ => rfl)
  simp only [el, er, eb]
  rfl

end Cert.ReferenceIdeal.Layers

end
-- ==== Proof.KValue.lean ====
/-
  The result of the three-region program, as the reference's last stage of the launch arrays.

  The buffer contents are followed through @main: the launch memory, a stretch of host operations, a region, a stretch,
  a region, a stretch, the last region. A stretch leaves the reference's neighbour-mean stage in the buffer the next
  region reads it from, the bias as one row, and every other buffer as it was; a region leaves the dense layer of the
  arrays it is entered with in its output array and every other buffer as it was. Composed: after the first region the
  output array holds the reference's first layer, after the second its second layer, and after the third the head on
  its third layer — the reference's result stage.
-/
import proofs.«147264_j69286412419426_1_alg».proof.Proof.KRun
import proofs.«147264_j69286412419426_1_alg».proof.Proof.KLayer0
import proofs.«147264_j69286412419426_1_alg».proof.Proof.KLayer1
import proofs.«147264_j69286412419426_1_alg».proof.Proof.KLayer2
import proofs.«147264_j69286412419426_1_alg».proof.Proof.KHost
import proofs.«147264_j69286412419426_1_alg».proof.Proof.RefLayers

set_option maxRecDepth 16384

noncomputable section

namespace Cert.KernelIdeal.Net

open Cert.KernelIdeal Cert.KernelIdeal.Gen Cert.KernelIdeal.HostStretch Cert.Dense Cert.ReferenceIdeal.Read
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## At the first region's entry -/

theorem w1_v22 : W1 m ρ c (Proc.devRef .tc main_v22) = val_main_v22 (F := Ideal) (m ((c : Thread nD τ).loc main_arg0)) (m ((c : Thread nD τ).loc main_arg1)) := s0_v22 (W0 m ρ c)
theorem w1_v23 : W1 m ρ c (Proc.devRef .tc main_v23) = shapeCast S1x256 (m ((c : Thread nD τ).loc main_arg4)) shapeCasts_S256_S1x256 := s0_v23 (W0 m ρ c)
theorem w1_v1 : W1 m ρ c (Proc.devRef .tc main_v1) = val_main_v1 (F := Ideal) (m ((c : Thread nD τ).loc main_arg1)) := s0_v1 (W0 m ρ c)
theorem w1_v3 : W1 m ρ c (Proc.devRef .tc main_v3) = val_main_v3 (F := Ideal) (m ((c : Thread nD τ).loc main_arg1)) := s0_v3 (W0 m ρ c)
theorem w1_arg0 : W1 m ρ c (Proc.devRef .tc main_arg0) = (m ((c : Thread nD τ).loc main_arg0)) := s0_arg0 (W0 m ρ c)
theorem w1_arg2 : W1 m ρ c (Proc.devRef .tc main_arg2) = (m ((c : Thread nD τ).loc main_arg2)) := s0_arg2 (W0 m ρ c)
theorem w1_arg3 : W1 m ρ c (Proc.devRef .tc main_arg3) = (m ((c : Thread nD τ).loc main_arg3)) := s0_arg3 (W0 m ρ c)
theorem w1_arg5 : W1 m ρ c (Proc.devRef .tc main_arg5) = (m ((c : Thread nD τ).loc main_arg5)) := s0_arg5 (W0 m ρ c)
theorem w1_arg6 : W1 m ρ c (Proc.devRef .tc main_arg6) = (m ((c : Thread nD τ).loc main_arg6)) := s0_arg6 (W0 m ρ c)
theorem w1_arg7 : W1 m ρ c (Proc.devRef .tc main_arg7) = (m ((c : Thread nD τ).loc main_arg7)) := s0_arg7 (W0 m ρ c)
theorem w1_arg8 : W1 m ρ c (Proc.devRef .tc main_arg8) = (m ((c : Thread nD τ).loc main_arg8)) := s0_arg8 (W0 m ρ c)
theorem w1_arg9 : W1 m ρ c (Proc.devRef .tc main_arg9) = (m ((c : Thread nD τ).loc main_arg9)) := s0_arg9 (W0 m ρ c)
theorem w1_arg10 : W1 m ρ c (Proc.devRef .tc main_arg10) = (m ((c : Thread nD τ).loc main_arg10)) := s0_arg10 (W0 m ρ c)
theorem w1_arg11 : W1 m ρ c (Proc.devRef .tc main_arg11) = (m ((c : Thread nD τ).loc main_arg11)) := s0_arg11 (W0 m ρ c)
theorem w1_arg12 : W1 m ρ c (Proc.devRef .tc main_arg12) = (m ((c : Thread nD τ).loc main_arg12)) := s0_arg12 (W0 m ρ c)

/-! ## After the first region -/

/-- The first region's output array holds the reference's first layer. -/
theorem w2_v24 : W2 m ρ c (Proc.devRef .tc main_v24) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Layer0.final (V1 m ρ) c).trans ?_)
  unfold Layer0.out
  have h22 : (V1 m ρ c main_v22 : Vec Ideal S50000x128 .f32) = val_main_v22 (F := Ideal) (m ((c : Thread nD τ).loc main_arg0)) (m ((c : Thread nD τ).loc main_arg1)) := w1_v22 m ρ c
  have h0 : (V1 m ρ c main_arg0 : Vec Ideal S50000x128 .f32) = (m ((c : Thread nD τ).loc main_arg0)) := w1_arg0 m ρ c
  have h2 : (V1 m ρ c main_arg2 : Vec Ideal S128x256 .f32) = (m ((c : Thread nD τ).loc main_arg2)) := w1_arg2 m ρ c
  have h3 : (V1 m ρ c main_arg3 : Vec Ideal S128x256 .f32) = (m ((c : Thread nD τ).loc main_arg3)) := w1_arg3 m ρ c
  have h23 : (V1 m ρ c main_v23 : Vec Ideal S1x256 .f32) = shapeCast S1x256 (m ((c : Thread nD τ).loc main_arg4)) shapeCasts_S256_S1x256 := w1_v23 m ρ c
  rw [h22, h0, h2, h3, h23, Cert.ReferenceIdeal.Layers.layer1]
  simp only [shapeCast_row_apply]

theorem w2_v1 : W2 m ρ c (Proc.devRef .tc main_v1) = val_main_v1 (F := Ideal) (m ((c : Thread nD τ).loc main_arg1)) := (W2_of_ne m ρ c main_v1 (by decide)).trans (w1_v1 m ρ c)
theorem w2_v3 : W2 m ρ c (Proc.devRef .tc main_v3) = val_main_v3 (F := Ideal) (m ((c : Thread nD τ).loc main_arg1)) := (W2_of_ne m ρ c main_v3 (by decide)).trans (w1_v3 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)

/-! ## At the second region's entry -/

theorem w3_v43 : W3 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s1_v43 (W2 m ρ c) _ _ _ _ _ (w2_v24 m ρ c) (w2_v1 m ρ c) (w2_v3 m ρ c)
theorem w3_v24 : W3 m ρ c (Proc.devRef .tc main_v24) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (s1_v24 (W2 m ρ c)).trans (w2_v24 m ρ c)
theorem w3_v44 : W3 m ρ c (Proc.devRef .tc main_v44) = shapeCast S1x256 (m ((c : Thread nD τ).loc main_arg7)) shapeCasts_S256_S1x256 :=
  (s1_v44 (W2 m ρ c)).trans (congrArg (fun z => shapeCast S1x256 z shapeCasts_S256_S1x256) (w2_arg7 m ρ c))
theorem w3_v1 : W3 m ρ c (Proc.devRef .tc main_v1) = val_main_v1 (F := Ideal) (m ((c : Thread nD τ).loc main_arg1)) := (s1_v1 (W2 m ρ c)).trans (w2_v1 m ρ c)
theorem w3_v3 : W3 m ρ c (Proc.devRef .tc main_v3) = val_main_v3 (F := Ideal) (m ((c : Thread nD τ).loc main_arg1)) := (s1_v3 (W2 m ρ c)).trans (w2_v3 m ρ c)
theorem w3_arg5 : W3 m ρ c (Proc.devRef .tc main_arg5) = (m ((c : Thread nD τ).loc main_arg5)) := (s1_arg5 (W2 m ρ c)).trans (w2_arg5 m ρ c)
theorem w3_arg6 : W3 m ρ c (Proc.devRef .tc main_arg6) = (m ((c : Thread nD τ).loc main_arg6)) := (s1_arg6 (W2 m ρ c)).trans (w2_arg6 m ρ c)
theorem w3_arg8 : W3 m ρ c (Proc.devRef .tc main_arg8) = (m ((c : Thread nD τ).loc main_arg8)) := (s1_arg8 (W2 m ρ c)).trans (w2_arg8 m ρ c)
theorem w3_arg9 : W3 m ρ c (Proc.devRef .tc main_arg9) = (m ((c : Thread nD τ).loc main_arg9)) := (s1_arg9 (W2 m ρ c)).trans (w2_arg9 m ρ c)
theorem w3_arg10 : W3 m ρ c (Proc.devRef .tc main_arg10) = (m ((c : Thread nD τ).loc main_arg10)) := (s1_arg10 (W2 m ρ c)).trans (w2_arg10 m ρ c)
theorem w3_arg11 : W3 m ρ c (Proc.devRef .tc main_arg11) = (m ((c : Thread nD τ).loc main_arg11)) := (s1_arg11 (W2 m ρ c)).trans (w2_arg11 m ρ c)
theorem w3_arg12 : W3 m ρ c (Proc.devRef .tc main_arg12) = (m ((c : Thread nD τ).loc main_arg12)) := (s1_arg12 (W2 m ρ c)).trans (w2_arg12 m ρ c)

/-! ## After the second region -/

/-- The second region's output array holds the reference's second layer. -/
theorem w4_v45 : W4 m ρ c (Proc.devRef .tc main_v45) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Layer1.final (V3 m ρ) c).trans ?_)
  unfold Layer1.out
  have h43 : (V3 m ρ c main_v43 : Vec Ideal S50000x256 .f32) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w3_v43 m ρ c
  have h24 : (V3 m ρ c main_v24 : Vec Ideal S50000x256 .f32) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w3_v24 m ρ c
  have h5 : (V3 m ρ c main_arg5 : Vec Ideal S256x256 .f32) = (m ((c : Thread nD τ).loc main_arg5)) := w3_arg5 m ρ c
  have h6 : (V3 m ρ c main_arg6 : Vec Ideal S256x256 .f32) = (m ((c : Thread nD τ).loc main_arg6)) := w3_arg6 m ρ c
  have h44 : (V3 m ρ c main_v44 : Vec Ideal S1x256 .f32) = shapeCast S1x256 (m ((c : Thread nD τ).loc main_arg7)) shapeCasts_S256_S1x256 := w3_v44 m ρ c
  rw [h43, h24, h5, h6, h44, Cert.ReferenceIdeal.Layers.layer2]
  simp only [shapeCast_row_apply]

theorem w4_v1 : W4 m ρ c (Proc.devRef .tc main_v1) = val_main_v1 (F := Ideal) (m ((c : Thread nD τ).loc main_arg1)) := (W4_of_ne m ρ c main_v1 (by decide)).trans (w3_v1 m ρ c)
theorem w4_v3 : W4 m ρ c (Proc.devRef .tc main_v3) = val_main_v3 (F := Ideal) (m ((c : Thread nD τ).loc main_arg1)) := (W4_of_ne m ρ c main_v3 (by decide)).trans (w3_v3 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)

/-! ## At the third region's entry -/

theorem w5_v64 : W5 m ρ c (Proc.devRef .tc main_v64) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  s2_v64 (W4 m ρ c) _ _ _ _ _ _ _ _ (w4_v45 m ρ c) (w4_v1 m ρ c) (w4_v3 m ρ c)
theorem w5_v45 : W5 m ρ c (Proc.devRef .tc main_v45) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (s2_v45 (W4 m ρ c)).trans (w4_v45 m ρ c)
theorem w5_v65 : W5 m ρ c (Proc.devRef .tc main_v65) = shapeCast S1x128 (m ((c : Thread nD τ).loc main_arg10)) shapeCasts_S128_S1x128 :=
  (s2_v65 (W4 m ρ c)).trans (congrArg (fun z => shapeCast S1x128 z shapeCasts_S128_S1x128) (w4_arg10 m ρ c))
theorem w5_v66 : W5 m ρ c (Proc.devRef .tc main_v66) = shapeCast S1x2 (m ((c : Thread nD τ).loc main_arg12)) shapeCasts_S2_S1x2 :=
  (s2_v66 (W4 m ρ c)).trans (congrArg (fun z => shapeCast S1x2 z shapeCasts_S2_S1x2) (w4_arg12 m ρ c))
theorem w5_arg8 : W5 m ρ c (Proc.devRef .tc main_arg8) = (m ((c : Thread nD τ).loc main_arg8)) := (s2_arg8 (W4 m ρ c)).trans (w4_arg8 m ρ c)
theorem w5_arg9 : W5 m ρ c (Proc.devRef .tc main_arg9) = (m ((c : Thread nD τ).loc main_arg9)) := (s2_arg9 (W4 m ρ c)).trans (w4_arg9 m ρ c)
theorem w5_arg11 : W5 m ρ c (Proc.devRef .tc main_arg11) = (m ((c : Thread nD τ).loc main_arg11)) := (s2_arg11 (W4 m ρ c)).trans (w4_arg11 m ρ c)

/-! ## After the third region -/

/-- The result array holds the reference's result stage of the launch arrays. -/
theorem w6_v67 : W6 m ρ c (Proc.devRef .tc main_v67) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 7).trans ((Layer2.final (V5 m ρ) c).trans ?_)
  unfold Layer2.out
  have h64 : (V5 m ρ c main_v64 : Vec Ideal S50000x256 .f32) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w5_v64 m ρ c
  have h45 : (V5 m ρ c main_v45 : Vec Ideal S50000x256 .f32) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w5_v45 m ρ c
  have h8 : (V5 m ρ c main_arg8 : Vec Ideal S256x128 .f32) = (m ((c : Thread nD τ).loc main_arg8)) := w5_arg8 m ρ c
  have h9 : (V5 m ρ c main_arg9 : Vec Ideal S256x128 .f32) = (m ((c : Thread nD τ).loc main_arg9)) := w5_arg9 m ρ c
  have h65 : (V5 m ρ c main_v65 : Vec Ideal S1x128 .f32) = shapeCast S1x128 (m ((c : Thread nD τ).loc main_arg10)) shapeCasts_S128_S1x128 := w5_v65 m ρ c
  have h11 : (V5 m ρ c main_arg11 : Vec Ideal S128x2 .f32) = (m ((c : Thread nD τ).loc main_arg11)) := w5_arg11 m ρ c
  have h66 : (V5 m ρ c main_v66 : Vec Ideal S1x2 .f32) = shapeCast S1x2 (m ((c : Thread nD τ).loc main_arg12)) shapeCasts_S2_S1x2 := w5_v66 m ρ c
  rw [h64, h45, h8, h9, h65, h11, h66, Cert.ReferenceIdeal.Layers.out, Cert.ReferenceIdeal.Layers.layer3]
  simp only [shapeCast_row_apply]

/-! ## The run -/

/-- Every weakly fair execution of the program terminates with the result array at the reference's result stage of
    the launch arrays and the argument arrays as launched. -/
theorem run : θ_run (defs (F := Ideal)) (onTc (τ := τ) (main (F := Ideal))) ⟨m, fun _ => 0, ρ⟩ (fun r => ∀ c : Dev nD,
      r.2.mem ((c.tc : Thread nD τ).loc main_v67) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (w6_v67 m ρ c), (h c).2⟩) (Cert.KernelIdeal.Named.run_named m ρ)

end Cert.KernelIdeal.Net

end
-- ==== Proof.lean ====
/-
  A three-layer mean-aggregating graph network (two layers with relu, a third without, then a two-column linear head)
  as three pallas_calls among host operations, against its jnp reference, over the extended reals.

  Both programs compute, per layer, the neighbour mean of the node rows by the same chain of host operations (gather at
  the edge sources, sum into the edge targets, divide by `max count 1`), and then
      mean · Wl + x · Wr + b        (followed by `max · 0` in the first two layers, by `· Wout + bout` after the third).
  The kernel computes the dense part block of 5000 rows by block, with its operands cut to bf16 before the products —
  the identity on the ideal values — and the products accumulated into a zero splat; the reference computes it on the
  whole arrays by `dot_general`. Entry by entry both are the same sums over the contracted coordinate, and the ten
  blocks of a region are the rows of the whole-array function, so each region leaves in its output array exactly the
  reference's stage. No law of arithmetic beyond `0 + x = x` is used, so the precondition is never opened.
  The frames of the two kernel programs are the generated ones; the reference's frame is its generated run.
-/
import proofs.«147264_j69286412419426_1_alg».proof.Defs
import proofs.«147264_j69286412419426_1_alg».proof.Proof.Gen.Kernel
import proofs.«147264_j69286412419426_1_alg».proof.Proof.Gen.Kernel.Frame
import proofs.«147264_j69286412419426_1_alg».proof.Proof.Gen.KernelIdeal
import proofs.«147264_j69286412419426_1_alg».proof.Proof.Gen.KernelIdeal.Frame
import proofs.«147264_j69286412419426_1_alg».proof.Proof.Gen.ReferenceIdeal
import proofs.«147264_j69286412419426_1_alg».proof.Proof.Gen.Pre_finite_inputs
import proofs.«147264_j69286412419426_1_alg».proof.Proof.Gen.ReferenceIdeal.Run
import proofs.«147264_j69286412419426_1_alg».proof.Proof.Gen.ReferenceIdeal.Read
import proofs.«147264_j69286412419426_1_alg».proof.Proof.KValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result array at the reference's result stage of the kernel's launch arrays: the kernel
    program by following its buffers through the three regions, the reference by its run, its arguments being the
    kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v84_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
